-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x2048 : Shape := ⟨3, ![32, 64, 2048]⟩
abbrev S2048x2048 : Shape := ⟨2, ![2048, 2048]⟩
abbrev S32x2048x2048 : Shape := ⟨3, ![32, 2048, 2048]⟩
abbrev S_ : Shape := ⟨0, ![]⟩

class Facts : Prop where
  bcast_S_S32x64x2048 : S_.BroadcastsInDim S32x64x2048 (![] : Fin 0 → Fin S32x64x2048.rank)
  reducesTo_S32x64x2048_S_d0_1_2 : S32x64x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S32x2048x2048 : S_.BroadcastsInDim S32x2048x2048 (![] : Fin 0 → Fin S32x2048x2048.rank)
  reducesTo_S32x2048x2048_S_d0_1_2 : S32x2048x2048.ReducesTo [0, 1, 2] S_

variable [Facts]

def fn_part1 {F : FTy → Type} [FloatOps F] (main_arg4 : FVec F S2048x2048 .f32) (main_v13 : IVec S_ 1) (main_v16 : IVec S32x2048x2048 1) : IVec S_ 1 :=
  let main_c_5 : IVec S_ 1 := constantI S_ 1 1#1
  let main_v17 : IVec S_ 1 := (fun x v => Host.reduce IntOp.andi x v reducesTo_S32x2048x2048_S_d0_1_2 h_S_) main_v16 main_c_5
  let main_v18 : IVec S_ 1 := andi main_v13 main_v17
  let main_v19 : FVec F S2048x2048 .f32 := Host.absf main_arg4
  let main_cst_6 : FVec F S_ .f32 := constant S_ .f32 0x7F800000#32
  let main_v20 : FVec F S2048x2048 .f32 := broadcastInDim S2048x2048 ![] bcast_S_S2048x2048 main_cst_6
  let main_v21 : IVec S2048x2048 1 := cmpf .olt main_v19 main_v20
  let main_c_7 : IVec S_ 1 := constantI S_ 1 1#1
  let main_v22 : IVec S_ 1 := (fun x v => Host.reduce IntOp.andi x v reducesTo_S2048x2048_S_d0_1 h_S_) main_v21 main_c_7
  let main_v23 : IVec S_ 1 := andi main_v18 main_v22
  main_v23

def fn {F : FTy → Type} [FloatOps F] (main_arg0 : FVec F S32x64x2048 .f32) (main_arg1 : FVec F S2048x2048 .f32) (main_arg2 : FVec F S32x2048x2048 .f32) (main_arg3 : FVec F S32x2048x2048 .f32) (main_arg4 : FVec F S2048x2048 .f32) : IVec S_ 1 :=
  let main_v0 : FVec F S32x64x2048 .f32 := Host.absf main_arg0
  let main_cst : FVec F S_ .f32 := constant S_ .f32 0x7F800000#32
  let main_v1 : FVec F S32x64x2048 .f32 := broadcastInDim S32x64x2048 ![] bcast_S_S32x64x2048 main_cst
  let main_v2 : IVec S32x64x2048 1 := cmpf .olt main_v0 main_v1
  let main_c : IVec S_ 1 := constantI S_ 1 1#1
  let main_v3 : IVec S_ 1 := (fun x v => Host.reduce IntOp.andi x v reducesTo_S32x64x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S32x2048x2048 .f32 := Host.absf main_arg2
  let main_cst_2 : FVec F S_ .f32 := constant S_ .f32 0x7F800000#32
  let main_v10 : FVec F S32x2048x2048 .f32 := broadcastInDim S32x2048x2048 ![] bcast_S_S32x2048x2048 main_cst_2
  let main_v11 : IVec S32x2048x2048 1 := cmpf .olt main_v9 main_v10
  let main_c_3 : IVec S_ 1 := constantI S_ 1 1#1
  let main_v12 : IVec S_ 1 := (fun x v => Host.reduce IntOp.andi x v reducesTo_S32x2048x2048_S_d0_1_2 h_S_) main_v11 main_c_3
  let main_v13 : IVec S_ 1 := andi main_v8 main_v12
  let main_v14 : FVec F S32x2048x2048 .f32 := Host.absf main_arg3
  let main_cst_4 : FVec F S_ .f32 := constant S_ .f32 0x7F800000#32
  let main_v15 : FVec F S32x2048x2048 .f32 := broadcastInDim S32x2048x2048 ![] bcast_S_S32x2048x2048 main_cst_4
  let main_v16 : IVec S32x2048x2048 1 := cmpf .olt main_v14 main_v15
  fn_part1 (F := F) main_arg4 main_v13 main_v16
-- ==== Kernel.lean ====
abbrev S32x64x2048 : Shape := ⟨3, ![32, 64, 2048]⟩
abbrev S2048x2048 : Shape := ⟨2, ![2048, 2048]⟩
abbrev S32x2048x2048 : Shape := ⟨3, ![32, 2048, 2048]⟩
abbrev S1x64x2048 : Shape := ⟨3, ![1, 64, 2048]⟩
abbrev S256x2048 : Shape := ⟨2, ![256, 2048]⟩
abbrev S1x256x2048 : Shape := ⟨3, ![1, 256, 2048]⟩
abbrev S1x64x256 : Shape := ⟨3, ![1, 64, 256]⟩
abbrev S64x2048 : Shape := ⟨2, ![64, 2048]⟩
abbrev S2048x256 : Shape := ⟨2, ![2048, 256]⟩
abbrev S64x256 : Shape := ⟨2, ![64, 256]⟩

abbrev nBuf : Space → Nat
  | .hbm => 6
  | .vmem => 10
  | .smem => 0
  | _ => 0

abbrev bufTy : (tb : Table) → Fin (tcTables nBuf tb) → BufTy
  | .hbm, ⟨0, _⟩ => ⟨S32x64x2048, .f32⟩
  | .hbm, ⟨1, _⟩ => ⟨S2048x2048, .f32⟩
  | .hbm, ⟨2, _⟩ => ⟨S32x2048x2048, .f32⟩
  | .hbm, ⟨3, _⟩ => ⟨S32x2048x2048, .f32⟩
  | .hbm, ⟨4, _⟩ => ⟨S2048x2048, .f32⟩
  | .hbm, ⟨5, _⟩ => ⟨S32x64x2048, .f32⟩
  | .local _ .vmem, ⟨0, _⟩ => ⟨S1x64x2048, .f32⟩
  | .local _ .vmem, ⟨1, _⟩ => ⟨S1x64x2048, .f32⟩
  | .local _ .vmem, ⟨2, _⟩ => ⟨S256x2048, .f32⟩
  | .local _ .vmem, ⟨3, _⟩ => ⟨S256x2048, .f32⟩
  | .local _ .vmem, ⟨4, _⟩ => ⟨S1x256x2048, .f32⟩
  | .local _ .vmem, ⟨5, _⟩ => ⟨S1x256x2048, .f32⟩
  | .local _ .vmem, ⟨6, _⟩ => ⟨S256x2048, .f32⟩
  | .local _ .vmem, ⟨7, _⟩ => ⟨S256x2048, .f32⟩
  | .local _ .vmem, ⟨8, _⟩ => ⟨S1x64x256, .f32⟩
  | .local _ .vmem, ⟨9, _⟩ => ⟨S1x64x256, .f32⟩
  | _, _ => ⟨S32x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat, arg0.toNat]

abbrev stage0_0 : Fin 2 → Memref sig .tc .vmem S1x64x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x64x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  inb_S256x2048_S256x2048_0_0 : ∀ a, (![0, 0] : Fin 2 → Nat) a + S256x2048.size a ≤ S256x2048.size a
  h_S256x2048 : 0 < S256x2048.numel
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x64x2048_S1x64x2048_0_0_0 : ∀ a, (![0, 0, 0] : Fin 3 → Nat) a + S1x64x2048.size a ≤ S1x64x2048.size a
  h_S1x64x2048 : 0 < S1x64x2048.numel
  shapeCasts_S1x64x2048_S64x2048 : S1x64x2048.ShapeCasts S64x2048
  bitsLt_bf16_f32 : FTy.bits .bf16 < FTy.bits .f32
  transposes_S256x2048_p1_0_S2048x256 : S256x2048.Transposes [1, 0] S2048x256
  inb_S1x64x256_S1x64x256_0_0_0 : ∀ a, (![0, 0, 0] : Fin 3 → Nat) a + S1x64x256.size a ≤ S1x64x256.size a
  h_S1x64x256 : 0 < S1x64x256.numel
  shapeCasts_S1x64x256_S64x256 : S1x64x256.ShapeCasts S64x256
  shapeCasts_S64x256_S1x64x256 : S64x256.ShapeCasts S1x64x256
  dot_S64x2048_S2048x256_S64x256_1_0_0_1_n_n_wf : DotDims.WF S64x2048 S2048x256 S64x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x2048.size a ≤ S32x64x2048.size a
  hwx0_0 : ∀ i : grid0.Coords, EltTy.bits .f32 = 32 ∨ (Rect.block (s := S32x64x2048) S1x64x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x2048.size a ≤ S32x2048x2048.size a
  hwx0_2 : ∀ i : grid0.Coords, EltTy.bits .f32 = 32 ∨ (Rect.block (s := S32x2048x2048) S1x256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .f32 = 32 ∨ (Rect.block (s := S2048x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x64x256.size a ≤ S32x64x2048.size a
  hwx0_4 : ∀ i : grid0.Coords, EltTy.bits .f32 = 32 ∨ (Rect.block (s := S32x64x2048) S1x64x256.size (cc0_transform_4 i) (hinb0_4 i)).WholeWords (EltTy.packing .f32)

variable [Facts₀]

def dot_S64x2048_S2048x256_S64x256_1_0_0_1_n_n : DotDims S64x2048 S2048x256 S64x256 where
  lhsContracting := [1]
  rhsContracting := [0]
  lhsNonContracting := [0]
  rhsNonContracting := [1]
  lhsBatch := []
  rhsBatch := []
  wf := dot_S64x2048_S2048x256_S64x256_1_0_0_1_n_n_wf

abbrev win0_0 : Pipeline.Window sig grid0 :=
  Pipeline.Window.ofSpec (Memref.whole main_arg0) S1x64x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x64x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32x64x2048 : Shape := ⟨3, ![32, 64, 2048]⟩
abbrev S2048x2048 : Shape := ⟨2, ![2048, 2048]⟩
abbrev S32x2048x2048 : Shape := ⟨3, ![32, 2048, 2048]⟩
abbrev S_ : Shape := ⟨0, ![]⟩
abbrev S1x2048x2048 : Shape := ⟨3, ![1, 2048, 2048]⟩

abbrev nBuf : Space → Nat
  | .hbm => 18
  | .vmem => 0
  | .smem => 0
  | _ => 0

abbrev bufTy : (tb : Table) → Fin (tcTables nBuf tb) → BufTy
  | .hbm, ⟨0, _⟩ => ⟨S32x64x2048, .f32⟩
  | .hbm, ⟨1, _⟩ => ⟨S2048x2048, .f32⟩
  | .hbm, ⟨2, _⟩ => ⟨S32x2048x2048, .f32⟩
  | .hbm, ⟨3, _⟩ => ⟨S32x2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | .hbm, ⟨9, _⟩ => ⟨S_, .f32⟩
  | .hbm, ⟨10, _⟩ => ⟨S2048x2048, .f32⟩
  | .hbm, ⟨11, _⟩ => ⟨S2048x2048, .f32⟩
  | .hbm, ⟨12, _⟩ => ⟨S1x2048x2048, .f32⟩
  | .hbm, ⟨13, _⟩ => ⟨S32x2048x2048, .f32⟩
  | .hbm, ⟨14, _⟩ => ⟨S32x2048x2048, .f32⟩
  | .hbm, ⟨15, _⟩ => ⟨S32x64x2048, .f32⟩
  | .hbm, ⟨16, _⟩ => ⟨S32x64x2048, .f32⟩
  | .hbm, ⟨17, _⟩ => ⟨S32x64x2048, .f32⟩
  | _, _ => ⟨S32x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩

abbrev nD : Nat := 1
abbrev τ : Topo := Topo.v7x

variable {F : FTy → Type} [FloatOps F]

class Facts₀ : Prop where
  bcast_S_S2048x2048 : S_.BroadcastsInDim S2048x2048 (![] : Fin 0 → Fin S2048x2048.rank)
  bcast_S2048x2048_S1x2048x2048_1_2 : S2048x2048.BroadcastsInDim S1x2048x2048 (![1, 2] : Fin 2 → Fin S1x2048x2048.rank)
  bcast_S1x2048x2048_S32x2048x2048_0_1_2 : S1x2048x2048.BroadcastsInDim S32x2048x2048 (![0, 1, 2] : Fin 3 → Fin S32x2048x2048.rank)
  dot_S32x64x2048_S32x2048x2048_S32x64x2048_2_2_1_1_0_0_wf : DotDims.WF S32x64x2048 S32x2048x2048 S32x64x2048 [2] [2] [1] [1] [0] [0]
  dot_S32x64x2048_S2048x2048_S32x64x2048_2_1_01_0_n_n_wf : DotDims.WF S32x64x2048 S2048x2048 S32x64x2048 [2] [1] [0, 1] [0] [] []

variable [Facts₀]

def dot_S32x64x2048_S32x2048x2048_S32x64x2048_2_2_1_1_0_0 : DotDims S32x64x2048 S32x2048x2048 S32x64x2048 where
  lhsContracting := [2]
  rhsContracting := [2]
  lhsNonContracting := [1]
  rhsNonContracting := [1]
  lhsBatch := [0]
  rhsBatch := [0]
  wf := dot_S32x64x2048_S32x2048x2048_S32x64x2048_2_2_1_1_0_0_wf
def dot_S32x64x2048_S2048x2048_S32x64x2048_2_1_01_0_n_n : DotDims S32x64x2048 S2048x2048 S32x64x2048 where
  lhsContracting := [2]
  rhsContracting := [1]
  lhsNonContracting := [0, 1]
  rhsNonContracting := [0]
  lhsBatch := []
  rhsBatch := []
  wf := dot_S32x64x2048_S2048x2048_S32x64x2048_2_1_01_0_n_n_wf

class Facts : Prop extends Facts₀ where

variable [Facts]
-- ==== Proof.Readout.lean ====
/-
  The fast-weight readout as one function of the argument arrays, in two arrangements, and the law that joins them.

  For batch b, position s and output feature o the result is the sum over the input feature i of
  x[b,s,i] · W[b,o,i], where W[b,o,i] = η[o,i] · state[b,o,i] + base[o,i] and the per-weight rate is
  η[o,i] = c₂ · exp (log_lr[o,i] · c₁), with c₁ and c₂ two fixed f32 numbers.

  The FUSED arrangement forms W first and contracts once. The SPLIT arrangement contracts x against η · state and
  against base apart and adds the two sums. When every factor is a real number the two agree: a real times a sum of
  two reals distributes, and a finite sum of termwise sums is the sum of the two finite sums. (On the extended reals
  the first step fails at the infinities, which is why the entries are asked to be real.)
-/
import Idealize.ShloMosaic.PureOps.Ideal
import Idealize.ShloMosaic.Lib.ValueIdx

noncomputable section

namespace Cert.Readout

open Idealize.ShloMosaic Idealize.ShloMosaic.ValueIdx
open scoped BigOperators

/-- The activations' shape, [batch, position, input feature]; also the result's, [batch, position, output feature]. -/
abbrev SX : Shape := ⟨3, ![32, 64, 2048]⟩
/-- A weight matrix's shape, [output feature, input feature]. -/
abbrev SW : Shape := ⟨2, ![2048, 2048]⟩
/-- The per-batch fast-weight state's shape, [batch, output feature, input feature]. -/
abbrev SS : Shape := ⟨3, ![32, 2048, 2048]⟩

/-- The scale inside the exponential: the f32 number nearest to √2048. -/
abbrev c₁ : EReal := Ideal.ofBits .f32 0x423504F3#32
/-- The scale outside the exponential: the f32 number nearest to 1/100. -/
abbrev c₂ : EReal := Ideal.ofBits .f32 0x3C23D70A#32

/-- The per-weight rate η[o,i] = c₂ · exp (log_lr[o,i] · c₁). -/
def rate (loglr : SW.Idx → EReal) (o i : Fin 2048) : EReal :=
  c₂ * Ideal.exp (loglr (ix2 o i) * c₁)

/-- The fused arrangement: one contraction of x against η · state + base. -/
def fused (x : SX.Idx → EReal) (loglr : SW.Idx → EReal) (state : SS.Idx → EReal) (base : SW.Idx → EReal) : SX.Idx → EReal :=
  fun j => ∑ i : Fin 2048, x (ix3 (j 0) (j 1) i) * (rate loglr (j 2) i * state (ix3 (j 0) (j 2) i) + base (ix2 (j 2) i))

/-- The split arrangement: the contraction against η · state plus the contraction against base. -/
def split (x : SX.Idx → EReal) (loglr : SW.Idx → EReal) (state : SS.Idx → EReal) (base : SW.Idx → EReal) : SX.Idx → EReal :=
  fun j => (∑ i : Fin 2048, x (ix3 (j 0) (j 1) i) * (rate loglr (j 2) i * state (ix3 (j 0) (j 2) i)))
    + ∑ i : Fin 2048, x (ix3 (j 0) (j 1) i) * base (ix2 (j 2) i)

/-- Every entry of the array is a real number (neither infinity). -/
def AllReal {ι : Type} (f : ι → EReal) : Prop := ∀ j, ∃ r : ℝ, f j = (r : EReal)

/-- c₁ is a real number: its exponent field is neither all ones nor zero. -/
theorem c₁_real : ∃ r : ℝ, c₁ = (r : EReal) :=
  ⟨11863283 * (2 ^ 18)⁻¹, by simp [Ideal.ofBits, Ideal.ieee, -EReal.coe_mul]⟩

/-- c₂ is a real number, for the same reason. -/
theorem c₂_real : ∃ r : ℝ, c₂ = (r : EReal) :=
  ⟨10737418 * (2 ^ 30)⁻¹, by simp [Ideal.ofBits, Ideal.ieee, -EReal.coe_mul]⟩

/-- The rate of a real log_lr is real: the exponential of a real is real, and so are products of reals. -/
theorem rate_real (loglr : SW.Idx → EReal) (hl : AllReal loglr) (o i : Fin 2048) : ∃ r : ℝ, rate loglr o i = (r : EReal) := by
  obtain ⟨l, hl'⟩ := hl (ix2 o i)
  obtain ⟨a, ha⟩ := c₁_real
  obtain ⟨b, hb⟩ := c₂_real
  refine ⟨b * Real.exp (l * a), ?_⟩
  unfold rate
  rw [hl', ha, hb, ← EReal.coe_mul, Ideal.exp_coe, ← EReal.coe_mul]

/-- A real times a sum of two reals distributes, also when read on the extended reals. -/
theorem mul_add_real (x a b : ℝ) : (x : EReal) * ((a : EReal) + (b : EReal)) = (x : EReal) * a + (x : EReal) * b := by
  rw [← EReal.coe_add, ← EReal.coe_mul, ← EReal.coe_mul, ← EReal.coe_mul, ← EReal.coe_add, mul_add]

/-- THE LAW. On real arrays the fused and the split arrangement are one function. -/
theorem fused_eq_split (x : SX.Idx → EReal) (loglr : SW.Idx → EReal) (state : SS.Idx → EReal) (base : SW.Idx → EReal)
    (hx : AllReal x) (hl : AllReal loglr) (hs : AllReal state) (hb : AllReal base) :
    fused x loglr state base = split x loglr state base := by
  funext j
  unfold fused split
  rw [← Finset.sum_add_distrib]
  refine Finset.sum_congr rfl fun i _ => ?_
  obtain ⟨xr, hxr⟩ := hx (ix3 (j 0) (j 1) i)
  obtain ⟨η, hη⟩ := rate_real loglr hl (j 2) i
  obtain ⟨s, hs'⟩ := hs (ix3 (j 0) (j 2) i)
  obtain ⟨w, hw⟩ := hb (ix2 (j 2) i)
  rw [hxr, hη, hs', hw, ← EReal.coe_mul]
  exact mul_add_real xr (η * s) w

end Cert.Readout

end
-- ==== Proof.Finite.lean ====
/-
  From the precondition to "every entry is a real number".

  The precondition is the conjunction, over the five float arguments, of all (|a| < +∞). A conjunction of truth words
  that is 1 has every conjunct 1; an all-reduction by "and" that is 1 met a 1 at every index; and an extended real
  whose absolute value max (a, −a) is strictly below +∞ is neither infinity, hence a real number.
-/
import proofs.«130309_j19069654794325_1_alg».proof.Pre_finite_inputs
import proofs.«130309_j19069654794325_1_alg».proof.Proof.Readout
import Idealize.ShloMosaic.Lib.ReduceAll
import Idealize.ShloMosaic.Lib.Pipeline.Value
import Idealize.ShloMosaic.Lib.ValueIdx
import Idealize.ShloMosaic.PureOps.Ideal.Laws

noncomputable section

namespace Cert.Finite

open Idealize.ShloMosaic Idealize.ShloMosaic.ValueIdx Cert.Readout

/-- The shape with no axis has exactly one index. -/
instance : Subsingleton (⟨0, ![]⟩ : Shape).Idx := ⟨fun _ _ => funext fun d => d.elim0⟩

/-- The f32 word with every exponent bit set and no fraction bit is +∞. -/
theorem inf_word : Ideal.ofBits .f32 0x7F800000#32 = (⊤ : EReal) := by simp [Ideal.ofBits, Ideal.ieee]

/-- An extended real with max (a, −a) < +∞ is a real number: at either infinity that maximum is +∞. -/
theorem real_of_abs_lt_top (a : EReal) (h : Ideal.cmp .olt (max a (-a)) (⊤ : EReal) = 1#1) : ∃ r : ℝ, a = (r : EReal) := by
  induction a using EReal.rec with
  | bot => simp [Ideal.cmp] at h
  | coe r => exact ⟨r, rfl⟩
  | top => simp [Ideal.cmp] at h

/-- One conjunct of the precondition: if all (|a| < +∞) is 1 then every entry of a is a real number. -/
theorem allReal_of_all {s : Shape} {axes : List (Fin s.rank)} (a : s.Idx → EReal)
    (hb : (⟨0, ![]⟩ : Shape).BroadcastsInDim s (![] : Fin 0 → Fin s.rank)) (hr : s.ReducesTo axes ⟨0, ![]⟩)
    (hu : 0 < (⟨0, ![]⟩ : Shape).numel) (init : (⟨0, ![]⟩ : Shape).Idx → BitVec 1)
    (e : Host.reduce IntOp.andi (cmpf (F := Ideal) (φ := .f32) .olt (Host.absf a)
        (broadcastInDim s ![] hb (constant (F := Ideal) ⟨0, ![]⟩ .f32 0x7F800000#32))) init hr hu ix0 = 1#1) :
    AllReal a := by
  intro i
  have h := Host.reduce_andi_all _ init hr hu ix0 e i
  have hbc : broadcastInDim s ![] hb (constant (F := Ideal) ⟨0, ![]⟩ .f32 0x7F800000#32) i = (⊤ : EReal) :=
    (broadcastInDim_apply _ hb _ i ix0 (fun d => d.elim0)).trans inf_word
  have h' : Ideal.cmp .olt (max (a i) (-(a i))) (⊤ : EReal) = 1#1 := by
    rw [← hbc]; exact h
  exact real_of_abs_lt_top _ h'

variable [Cert.Pre_finite_inputs.Facts]

/-- The precondition gives realness of the four arrays the result depends on (the momentum array is asked to be
    finite too, and is not used). -/
theorem of_pre (a0 : Cert.Pre_finite_inputs.S32x64x2048.Idx → EReal) (a1 : Cert.Pre_finite_inputs.S2048x2048.Idx → EReal)
    (a2 a3 : Cert.Pre_finite_inputs.S32x2048x2048.Idx → EReal) (a4 : Cert.Pre_finite_inputs.S2048x2048.Idx → EReal)
    (h : Cert.Pre_finite_inputs.fn (F := Ideal) a0 a1 a2 a3 a4 = fun _ => 1#1) :
    AllReal a0 ∧ AllReal a1 ∧ AllReal a2 ∧ AllReal a4 := by
  have h0 := congrFun h ix0
  dsimp only [Cert.Pre_finite_inputs.fn, Cert.Pre_finite_inputs.fn_part1] at h0
  obtain ⟨h0123, h4⟩ := IntOp.andi_eq_one.1 h0
  obtain ⟨h012, _⟩ := IntOp.andi_eq_one.1 h0123
  obtain ⟨h01, h2⟩ := IntOp.andi_eq_one.1 h012
  obtain ⟨h0', h1⟩ := IntOp.andi_eq_one.1 h01
  exact ⟨allReal_of_all a0 _ _ _ _ h0', allReal_of_all a1 _ _ _ _ h1, allReal_of_all a2 _ _ _ _ h2,
    allReal_of_all a4 _ _ _ _ h4⟩

end Cert.Finite

end
-- ==== Proof.LibDotPlain.lean ====
/- A matrix product read at one index, for dimension numbers with no batch axis and one contracted axis.

   Two arrangements: rows times columns (the left operand's second axis against the right operand's first), and
   the transposed-left product (both operands' first axes contracted: the left operand's columns index the result's
   rows). In both the contraction index is one coordinate, and the sum over it is a sum over that coordinate. The
   kernel's product into a zero accumulator and the host's product are that same sum. -/
import Idealize.ShloMosaic.PureOps.Ideal
import Idealize.ShloMosaic.PureOps.Ideal.Laws
import Idealize.ShloMosaic.Lib.ValueIdx

noncomputable section

namespace Cert.DotPlain

open Idealize.ShloMosaic Idealize.ShloMosaic.ValueIdx
open scoped BigOperators

/-! ## One contracted axis, no batch axis: the contraction shape and the operand coordinates -/

/-- A list that is a singleton has its one element at position 0. -/
theorem getElem_zero_of_eq_singleton {α : Type} {l : List α} {c : α} (h : l = [c]) (hp : 0 < l.length) : l[0] = c := by
  subst h; rfl

/-- With one contracted axis the contraction shape has one axis. -/
theorem contr_rank_one {sl sr so : Shape} (d : DotDims sl sr so) {c : Fin sl.rank} (hlc : d.lhsContracting = [c]) :
    d.contr.rank = 1 := by
  rw [d.rank_contr, hlc]; rfl

/-- That one axis has the extent of the left operand's contracted axis. -/
theorem contr_size_zero {sl sr so : Shape} (d : DotDims sl sr so) {c : Fin sl.rank} (hlc : d.lhsContracting = [c]) :
    d.contr.size ⟨0, by rw [contr_rank_one d hlc]; exact Nat.one_pos⟩ = sl.size c := by
  have hp : 0 < d.lhsContracting.length := by rw [hlc]; exact Nat.one_pos
  exact (d.size_contr 0 hp).trans (congrArg sl.size (getElem_zero_of_eq_singleton hlc hp))

/-- Moving along one index changes nothing but the position read. -/
private theorem val_congr {s : Shape} (j : s.Idx) (p q : Nat) (hp : p < s.rank) (hq : q < s.rank) (h : p = q) :
    (j ⟨p, hp⟩).val = (j ⟨q, hq⟩).val := by
  subst h; rfl

/-- No batch axis and one free axis on the left: on that axis the left operand reads the result's first coordinate. -/
theorem lhsIdx_val_nonContr {sl sr so : Shape} (d : DotDims sl sr so) (hlb : d.lhsBatch = [])
    {a : Fin sl.rank} (hln : d.lhsNonContracting = [a]) (j : so.Idx) (k : d.contr.Idx) (h0 : 0 < so.rank) :
    (d.lhsIdx j k a).val = (j ⟨0, h0⟩).val := by
  have hb : a ∉ d.lhsBatch := by rw [hlb]; exact List.not_mem_nil
  have hn : a ∈ d.lhsNonContracting := by rw [hln]; exact List.mem_singleton.mpr rfl
  unfold DotDims.lhsIdx
  rw [dif_neg hb, dif_pos hn]
  simp only [Fin.val_cast]
  exact val_congr j _ _ _ _ (by simp [hlb, hln])

/-- No batch axis and one free axis on each side: on its free axis the right operand reads the result's second
    coordinate (the result lists the left operand's free axis first). -/
theorem rhsIdx_val_nonContr {sl sr so : Shape} (d : DotDims sl sr so) (hlb : d.lhsBatch = []) (hrb : d.rhsBatch = [])
    {al : Fin sl.rank} (hln : d.lhsNonContracting = [al]) {a : Fin sr.rank} (hrn : d.rhsNonContracting = [a])
    (j : so.Idx) (k : d.contr.Idx) (h1 : 1 < so.rank) :
    (d.rhsIdx j k a).val = (j ⟨1, h1⟩).val := by
  have hb : a ∉ d.rhsBatch := by rw [hrb]; exact List.not_mem_nil
  have hn : a ∈ d.rhsNonContracting := by rw [hrn]; exact List.mem_singleton.mpr rfl
  unfold DotDims.rhsIdx
  rw [dif_neg hb, dif_pos hn]
  simp only [Fin.val_cast]
  exact val_congr j _ _ _ _ (by simp [hlb, hln, hrn])

/-! ## The contraction sum as a sum over the contracted coordinate -/

/-- Rows times columns: the contraction sum at (a, b) is the sum over k of l (a, k) · r (k, b). -/
theorem sum_rows_cols {M K N : Nat} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (l : (⟨2, ![M, K]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 a k) * r (ix2 k b) := by
  have hr : d.contr.rank = 1 := contr_rank_one d hlc
  have hs : d.contr.size ⟨0, by omega⟩ = K := contr_size_zero d hlc
  -- re-index the sum by the one contraction coordinate, then identify each operand's index axis by axis
  rw [← Equiv.sum_comp (contrEquiv1 d K hr hs).symm]
  refine Finset.sum_congr rfl fun k _ => ?_
  have hl : d.lhsIdx (ix2 a b) ((contrEquiv1 d K hr hs).symm k) = ix2 a k := by
    funext ax
    match ax with
    | ⟨0, _⟩ => exact Fin.ext (lhsIdx_val_nonContr d hlb hln _ _ Nat.zero_lt_two)
    | ⟨1, _⟩ => exact Fin.ext ((d.lhsIdx_val_of_single hlc _ _).trans (contrEquiv1_symm_val d K hr hs k))
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-- Transposed-left product: the contraction sum at (a, b) is the sum over k of l (k, a) · r (k, b). -/
theorem sum_cols_cols {M K N : Nat} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (l : (⟨2, ![K, M]⟩ : Shape).Idx → EReal) (r : (⟨2, ![K, N]⟩ : Shape).Idx → EReal) (a : Fin M) (b : Fin N) :
    (∑ k : d.contr.Idx, l (d.lhsIdx (ix2 a b) k) * r (d.rhsIdx (ix2 a b) k)) = ∑ k : Fin K, l (ix2 k a) * r (ix2 k b) := by
  have hr : d.contr.rank = 1 := contr_rank_one d hlc
  have hs : d.contr.size ⟨0, by omega⟩ = K := contr_size_zero d hlc
  rw [← Equiv.sum_comp (contrEquiv1 d K hr hs).symm]
  refine Finset.sum_congr rfl fun k _ => ?_
  -- the left operand's first axis is the contracted one, its second axis carries the result's row
  have hl : d.lhsIdx (ix2 a b) ((contrEquiv1 d K hr hs).symm k) = ix2 k a := by
    funext ax
    match ax with
    | ⟨0, _⟩ => exact Fin.ext ((d.lhsIdx_val_of_single hlc _ _).trans (contrEquiv1_symm_val d K hr hs k))
    | ⟨1, _⟩ => exact Fin.ext (lhsIdx_val_nonContr d hlb hln _ _ Nat.zero_lt_two)
  have hrr : d.rhsIdx (ix2 a b) ((contrEquiv1 d K hr hs).symm k) = ix2 k b := by
    funext ax
    match ax with
    | ⟨0, _⟩ => exact Fin.ext ((d.rhsIdx_val_of_single hrc _ _).trans (contrEquiv1_symm_val d K hr hs k))
    | ⟨1, _⟩ => exact Fin.ext (rhsIdx_val_nonContr d hlb hrb hln hrn _ _ Nat.one_lt_two)
  rw [hl, hrr]

/-! ## The two products at an index -/

/-- The host's product, rows times columns, at an index. -/
theorem dotGeneral_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (sum_rows_cols d hlb hrb hlc hrc hln hrn l r a b)

/-- The kernel's product into the zero accumulator, rows times columns, at an index. -/
theorem matmul_zero_rows_cols {M K N : Nat} {φ₁ φ₂ : FTy} (d : DotDims ⟨2, ![M, K]⟩ ⟨2, ![K, N]⟩ ⟨2, ![M, N]⟩)
    (hlb : d.lhsBatch = []) (hrb : d.rhsBatch = []) (hlc : d.lhsContracting = [1]) (hrc : d.rhsContracting = [0])
    (hln : d.lhsNonContracting = [0]) (hrn : d.rhsNonContracting = [1])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (sum_rows_cols d hlb hrb hlc hrc hln hrn l r a b)

/-- The kernel's transposed-left product into the zero accumulator, at an index. -/
theorem matmul_zero_cols_cols {M K N : Nat} {φ₁ φ₂ : FTy} (d : DotDims ⟨2, ![K, M]⟩ ⟨2, ![K, N]⟩ ⟨2, ![M, N]⟩)
    (hlb : d.lhsBatch = []) (hrb : d.rhsBatch = []) (hlc : d.lhsContracting = [0]) (hrc : d.rhsContracting = [0])
    (hln : d.lhsNonContracting = [1]) (hrn : d.rhsNonContracting = [1])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (sum_cols_cols d hlb hrb hlc hrc hln hrn l r a b)

end Cert.DotPlain

end
-- ==== Proof.BlockProduct.lean ====
/-
  What the kernel body stores at one grid point, read at one index.

  At a grid point the body holds four loaded blocks: a 64 × 2048 slab of x (one batch, under a leading unit axis), and
  a 256 × 2048 tile of log_lr, of state (one batch, under a leading unit axis) and of base. From the three tiles it
  forms the tile of the combined weight, W = η · state + base with η = c₂ · exp (log_lr · c₁), entry by entry, and it
  stores the slab times the transpose of W. Read on the extended reals a change of float format is the identity and a
  matrix product into a zero accumulator is the plain sum over the contracted coordinate; the transpose swaps the two
  coordinates of W, and the unit axis of the slab, the state tile and the result is dropped or put back. So the stored
  entry at (s, o) is the sum over i of slab (s, i) · W (o, i).
-/
import proofs.«130309_j19069654794325_1_alg».proof.Proof.Gen.KernelIdeal.Skeleton
import proofs.«130309_j19069654794325_1_alg».proof.Proof.LibDotPlain
import proofs.«130309_j19069654794325_1_alg».proof.Proof.Readout
import Idealize.ShloMosaic.Lib.ValueLayout
import Idealize.ShloMosaic.Lib.ValueIdx
import Idealize.ShloMosaic.PureOps.Ideal.Laws

noncomputable section

namespace Cert.BlockProduct

open Cert.KernelIdeal Cert.KernelIdeal.Gen Idealize.ShloMosaic Idealize.ShloMosaic.ValueIdx Cert.Readout
open scoped BigOperators

/-- The stored block at (s, o), from the loaded tile of log_lr (`lg`), of state (`st`), of base (`bs`) and the loaded slab
    of x (`xs`): the contraction over the input feature of the slab's row s against row o of the combined weight. -/
theorem stored_apply (lg : Vec Ideal S256x2048 .f32) (st : Vec Ideal S1x256x2048 .f32) (bs : Vec Ideal S256x2048 .f32)
    (xs : Vec Ideal S1x64x2048 .f32) (u : Fin 1) (s : Fin 64) (o : Fin 256) :
    k0_pay1 (F := Ideal) lg st bs xs (ix3 u s o)
      = ∑ i : Fin 2048, xs (ix3 (0 : Fin 1) s i)
          * ((c₂ * Ideal.exp (lg (ix2 o i) * c₁)) * st (ix3 (0 : Fin 1) o i) + bs (ix2 o i)) := by
  unfold k0_pay1
  dsimp only
  rw [shapeCast_ab_1ab_apply]
  refine (Cert.DotPlain.matmul_zero_rows_cols (M := 64) (K := 2048) (N := 256)
    dot_S64x2048_S2048x256_S64x256_1_0_0_1_n_n rfl rfl rfl rfl rfl rfl none _ _ s o).trans ?_
  refine Finset.sum_congr rfl fun i _ => ?_
  rw [truncf_apply, shapeCast_1ab_ab_apply, transpose_ix2_apply, truncf_apply, addf_apply, mulf_apply, mulf_apply,
    shapeCast_1ab_ab_apply]
  rfl

end Cert.BlockProduct

end
-- ==== Proof.ReadoutArray.lean ====
/-
  The kernel's result array as one function of the argument arrays.

  The grid has 8 × 32 points; point (q, b) handles batch b and the output-feature tile q of 256 features. Its windows
  are: the whole slab x[b, :, :]; rows 256 q … 256 q + 255 of log_lr and of base; the same rows of state[b, :, :]; and
  it writes the block out[b, :, 256 q … 256 q + 255]. What the body stores there is, entry by entry, the contraction
  of the slab's row against the combined weight's row (the block product read at an index), which is the fused
  readout at batch b, position s and feature 256 q + o. So each point writes back its block of ONE function of the
  argument arrays. The blocks of the 256 points tile the result array — batch b and tile (feature / 256) name the
  point that covers an index — so after the run the array is that function.
-/
import proofs.«130309_j19069654794325_1_alg».proof.Proof.Gen.KernelIdeal.Value
import proofs.«130309_j19069654794325_1_alg».proof.Proof.BlockProduct
import proofs.«130309_j19069654794325_1_alg».proof.Proof.Readout
import Idealize.ShloMosaic.Lib.Pipeline.Value
import Idealize.ShloMosaic.Lib.ValueIdx

noncomputable section

namespace Cert.ReadoutArray

open Cert.KernelIdeal Cert.KernelIdeal.Gen Idealize.ShloMosaic Idealize.ShloMosaic.TcCoe Idealize.SL.Sem
open Idealize.ShloMosaic.ValueIdx Cert.Readout
open Idealize.ShloMosaic.Pipeline (Dat)
open scoped BigOperators

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-! ## One grid point: the stored block is a block of the fused readout -/

/-- If the four loaded blocks are the slab of batch b and the tiles of rows 256 q … of the three weight arrays, the
    stored block at (s, o) is the fused readout at (b, s, 256 q + o). Stated over blocks as plain functions, with
    how they read the arrays as hypotheses. -/
theorem stored_eq_fused (x : SX.Idx → EReal) (lg : SW.Idx → EReal) (st : SS.Idx → EReal) (bs : SW.Idx → EReal)
    (xs : Vec Ideal S1x64x2048 .f32) (lgt : Vec Ideal S256x2048 .f32) (stt : Vec Ideal S1x256x2048 .f32)
    (bst : Vec Ideal S256x2048 .f32) (b : Fin 32) (q : Fin 8)
    (hx : ∀ (s : Fin 64) (i : Fin 2048), xs (ix3 (0 : Fin 1) s i) = x (ix3 b s i))
    (hlg : ∀ (o : Fin 256) (i : Fin 2048), lgt (ix2 o i) = lg (ix2 ⟨q.val * 256 + o.val, by omega⟩ i))
    (hst : ∀ (o : Fin 256) (i : Fin 2048), stt (ix3 (0 : Fin 1) o i) = st (ix3 b ⟨q.val * 256 + o.val, by omega⟩ i))
    (hbs : ∀ (o : Fin 256) (i : Fin 2048), bst (ix2 o i) = bs (ix2 ⟨q.val * 256 + o.val, by omega⟩ i))
    (j : S1x64x256.Idx) :
    k0_pay1 (F := Ideal) lgt stt bst xs j
      = fused x lg st bs (ix3 b (j 1) ⟨q.val * 256 + (j 2).val, by have h : (j 2).val < 256 := (j 2).isLt; omega⟩) := by
  obtain ⟨u, s, o, rfl⟩ : ∃ (u : Fin 1) (s : Fin 64) (o : Fin 256), j = ix3 u s o := ⟨j 0, j 1, j 2, eq_ix3 j⟩
  rw [Cert.BlockProduct.stored_apply]
  unfold fused rate
  refine Finset.sum_congr rfl fun i _ => ?_
  rw [hx, hlg, hst, hbs]

/-! ## The index maps over the grid -/

/-- Where each window's block sits, relative to the output block's batch index and feature-tile index: decided
    over the 256 points. -/
theorem idx_facts : ∀ t : Fin cfg0.N,
    win0_0.index t (0 : Fin 3) = win0_4.index t (0 : Fin 3) ∧ win0_0.index t (1 : Fin 3) = 0 ∧ win0_0.index t (2 : Fin 3) = 0
    ∧ win0_1.index t (0 : Fin 2) = win0_4.index t (2 : Fin 3) ∧ win0_1.index t (1 : Fin 2) = 0
    ∧ win0_2.index t (0 : Fin 3) = win0_4.index t (0 : Fin 3) ∧ win0_2.index t (1 : Fin 3) = win0_4.index t (2 : Fin 3)
    ∧ win0_2.index t (2 : Fin 3) = 0
    ∧ win0_3.index t (0 : Fin 2) = win0_4.index t (2 : Fin 3) ∧ win0_3.index t (1 : Fin 2) = 0
    ∧ win0_4.index t (1 : Fin 3) = 0
    ∧ win0_4.index t (0 : Fin 3) < 32 ∧ win0_4.index t (2 : Fin 3) < 8 :=
  (by decide +kernel : ∀ t : Fin grid0.N, _)

/-- Every (batch, feature tile) is some point's output block. -/
theorem idx_onto : ∀ (b : Fin 32) (q : Fin 8), ∃ t : Fin cfg0.N, win0_4.index t = ![b.val, 0, q.val] :=
  (by decide +kernel : ∀ (b : Fin 32) (q : Fin 8), ∃ t : Fin grid0.N, win0_4.index t = ![b.val, 0, q.val])

/-! ## What a point writes back -/

/-- Point t writes back block t of the fused readout of the argument arrays. -/
theorem flushed_eq (c : Dev nD) (t : Fin cfg0.N) :
    (dats m 0 c).flushed 4 t = ((cfg0.win 4).blk t).view.read (Elt Ideal)
      (fused (V m c main_arg0) (V m c main_arg1) (V m c main_arg2) (V m c main_arg4)) := by
  rw [Cert.KernelIdeal.Value.flushed4]
  unfold out0_4
  rw [View.canon_unit_zero zero3]
  simp only [View.ld_unit_zero (S := S256x2048) zero2, View.ld_unit_zero (S := S1x256x2048) zero3,
    View.ld_unit_zero (S := S1x64x2048) zero3]
  obtain ⟨e00, e01, e02, e10, e11, e20, e21, e22, e30, e31, e41, hb, hq⟩ := idx_facts t
  funext j
  have hj0 : (j 0).val < 1 := (j 0).isLt
  have hj1 : (j 1).val < 64 := (j 1).isLt
  have hj2 : (j 2).val < 256 := (j 2).isLt
  refine (stored_eq_fused (V m c main_arg0) (V m c main_arg1) (V m c main_arg2) (V m c main_arg4)
    (iblk m c 0 t) (iblk m c 1 t) (iblk m c 2 t) (iblk m c 3 t) ⟨win0_4.index t (0 : Fin 3), hb⟩ ⟨win0_4.index t (2 : Fin 3), hq⟩
    ?_ ?_ ?_ ?_ j).trans ?_
  · intro s i
    show V m c main_arg0 (((cfg0.win 0).blk t).view.emb (ix3 (0 : Fin 1) s i)) = _
    refine congrArg (V m c main_arg0) (funext fun a => Fin.ext ?_)
    match a with
    | ⟨0, _⟩ => show win0_0.index t (0 : Fin 3) * 1 + 1 * 0 = win0_4.index t (0 : Fin 3); omega
    | ⟨1, _⟩ => show win0_0.index t (1 : Fin 3) * 64 + 1 * s.val = s.val; omega
    | ⟨2, _⟩ => show win0_0.index t (2 : Fin 3) * 2048 + 1 * i.val = i.val; omega
  · intro o i
    show V m c main_arg1 (((cfg0.win 1).blk t).view.emb (ix2 o i)) = _
    refine congrArg (V m c main_arg1) (funext fun a => Fin.ext ?_)
    match a with
    | ⟨0, _⟩ => show win0_1.index t (0 : Fin 2) * 256 + 1 * o.val = win0_4.index t (2 : Fin 3) * 256 + o.val; omega
    | ⟨1, _⟩ => show win0_1.index t (1 : Fin 2) * 2048 + 1 * i.val = i.val; omega
  · intro o i
    show V m c main_arg2 (((cfg0.win 2).blk t).view.emb (ix3 (0 : Fin 1) o i)) = _
    refine congrArg (V m c main_arg2) (funext fun a => Fin.ext ?_)
    match a with
    | ⟨0, _⟩ => show win0_2.index t (0 : Fin 3) * 1 + 1 * 0 = win0_4.index t (0 : Fin 3); omega
    | ⟨1, _⟩ => show win0_2.index t (1 : Fin 3) * 256 + 1 * o.val = win0_4.index t (2 : Fin 3) * 256 + o.val; omega
    | ⟨2, _⟩ => show win0_2.index t (2 : Fin 3) * 2048 + 1 * i.val = i.val; omega
  · intro o i
    show V m c main_arg4 (((cfg0.win 3).blk t).view.emb (ix2 o i)) = _
    refine congrArg (V m c main_arg4) (funext fun a => Fin.ext ?_)
    match a with
    | ⟨0, _⟩ => show win0_3.index t (0 : Fin 2) * 256 + 1 * o.val = win0_4.index t (2 : Fin 3) * 256 + o.val; omega
    | ⟨1, _⟩ => show win0_3.index t (1 : Fin 2) * 2048 + 1 * i.val = i.val; omega
  · show _ = fused (V m c main_arg0) (V m c main_arg1) (V m c main_arg2) (V m c main_arg4) (((cfg0.win 4).blk t).view.emb j)
    refine congrArg (fused (V m c main_arg0) (V m c main_arg1) (V m c main_arg2) (V m c main_arg4)) (funext fun a => Fin.ext ?_)
    match a with
    | ⟨0, _⟩ => show win0_4.index t (0 : Fin 3) = win0_4.index t (0 : Fin 3) * 1 + 1 * (j 0).val; omega
    | ⟨1, _⟩ => show (j 1).val = win0_4.index t (1 : Fin 3) * 64 + 1 * (j 1).val; omega
    | ⟨2, _⟩ => show win0_4.index t (2 : Fin 3) * 256 + (j 2).val = win0_4.index t (2 : Fin 3) * 256 + 1 * (j 2).val; omega

/-! ## The blocks tile the result array -/

/-- An index of the result array is in point t's block iff each coordinate is in the block's range on its axis. -/
theorem mem_blk (t : Fin cfg0.N) (i : S32x64x2048.Idx) :
    i ∈ ((cfg0.win 4).blk t).view.set ↔ ∀ a : Fin 3, win0_4.index t a * S1x64x256.size a ≤ (i a).val
      ∧ (i a).val < win0_4.index t a * S1x64x256.size a + S1x64x256.size a := by
  show i ∈ ((View.whole main_v0).slice (win0_4.rect t)).set ↔ _
  rw [View.set_slice_whole, Rect.mem_set_unit]
  exact Iff.rfl

/-- Every index is in the block of the point of its batch and its feature tile. -/
theorem cover (i : S32x64x2048.Idx) :
    ∃ t : Fin cfg0.N, (cfg0.win 4).flush t = true ∧ i ∈ ((cfg0.win 4).blk t).view.set := by
  have hi0 : (i 0).val < 32 := (i 0).isLt
  have hi1 : (i 1).val < 64 := (i 1).isLt
  have hi2 : (i 2).val < 2048 := (i 2).isLt
  obtain ⟨t, ht⟩ := idx_onto ⟨(i 0).val, hi0⟩ ⟨(i 2).val / 256, by omega⟩
  have q0 : win0_4.index t (0 : Fin 3) = (i 0).val := congrFun ht 0
  have q1 : win0_4.index t (1 : Fin 3) = 0 := congrFun ht 1
  have q2 : win0_4.index t (2 : Fin 3) = (i 2).val / 256 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 64 ≤ (i 1).val ∧ (i 1).val < win0_4.index t (1 : Fin 3) * 64 + 64; omega
  | ⟨2, _⟩ => show win0_4.index t (2 : Fin 3) * 256 ≤ (i 2).val ∧ (i 2).val < win0_4.index t (2 : Fin 3) * 256 + 256; omega

/-! ## The array after the run, and the run -/

/-- After the run the result array is the fused readout of the argument arrays as launched. -/
theorem final (c : Dev nD) : (dats m 0 c).arrAt 4 cfg0.N
    = fused (m ((c : Thread nD τ).loc main_arg0)) (m ((c : Thread nD τ).loc main_arg1))
        (m ((c : Thread nD τ).loc main_arg2)) (m ((c : Thread nD τ).loc main_arg4)) :=
  (dats m 0 c).arrAt_eq_of_cover 4 _ (fun t _ => flushed_eq m c t) cover

/-- The kernel's run: every weakly fair execution ends with the result array at the fused readout and the
    arguments unchanged. -/
theorem run : θ_run defs (onTc (τ := τ) (main (F := Ideal))) ⟨m, fun _ => 0, ρ⟩ fun r => ∀ c : Dev nD,
      r.2.mem ((c : Thread nD τ).loc main_v0)
        = fused (m ((c : Thread nD τ).loc main_arg0)) (m ((c : Thread nD τ).loc main_arg1))
            (m ((c : Thread nD τ).loc main_arg2)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (Cert.KernelIdeal.Value.run_blocks m ρ)

end Cert.ReadoutArray

end
-- ==== Proof.SplitReference.lean ====
/-
  The reference's result is the split readout.

  The reference forms the rate array η = c₂ · exp (log_lr · c₁), lays it under a batch axis, multiplies by state, and
  contracts x against that product over the input feature, batch by batch; apart from that it contracts x against base;
  and it adds the two. Read at an index (batch b, position s, feature o), the first contraction is the sum over i of
  x[b,s,i] · (η[o,i] · state[b,o,i]) and the second the sum over i of x[b,s,i] · base[o,i]: the split arrangement.
-/
import proofs.«130309_j19069654794325_1_alg».proof.Proof.Gen.ReferenceIdeal.Read
import proofs.«130309_j19069654794325_1_alg».proof.Proof.Readout
import Idealize.ShloMosaic.Lib.ValueIdx

noncomputable section

namespace Cert.SplitReference

open Cert.ReferenceIdeal Cert.ReferenceIdeal.Gen Cert.ReferenceIdeal.Read Idealize.ShloMosaic Idealize.ShloMosaic.ValueIdx
open Cert.Readout
open scoped BigOperators

/-! ## The operand indices of the two contractions, and of the rate array under its batch axis -/

/-- First contraction, left operand: x at (batch, position, k). -/
theorem left_first (b : Fin 32) (s : Fin 64) (o k : Fin 2048) : lidx_main_v8 (ix3 b s o) k = ix3 b s k :=
  funext fun a => Fin.ext (by match a with | ⟨0, _⟩ => rfl | ⟨1, _⟩ => rfl | ⟨2, _⟩ => rfl)

/-- First contraction, right operand: the scaled state at (batch, feature, k). -/
theorem right_first (b : Fin 32) (s : Fin 64) (o k : Fin 2048) : ridx_main_v8 (ix3 b s o) k = ix3 b o k :=
  funext fun a => Fin.ext (by match a with | ⟨0, _⟩ => rfl | ⟨1, _⟩ => rfl | ⟨2, _⟩ => rfl)

/-- Second contraction, left operand: x at (batch, position, k). -/
theorem left_second (b : Fin 32) (s : Fin 64) (o k : Fin 2048) : lidx_main_v9 (ix3 b s o) k = ix3 b s k :=
  funext fun a => Fin.ext (by match a with | ⟨0, _⟩ => rfl | ⟨1, _⟩ => rfl | ⟨2, _⟩ => rfl)

/-- Second contraction, right operand: base at (feature, k). -/
theorem right_second (b : Fin 32) (s : Fin 64) (o k : Fin 2048) : ridx_main_v9 (ix3 b s o) k = ix2 o k :=
  funext fun a => Fin.ext (by match a with | ⟨0, _⟩ => rfl | ⟨1, _⟩ => rfl)

/-- The rate array laid under a unit axis and then under the batch axis reads, at (b, o, i), the rate at (o, i). -/
theorem under_batch (b : Fin 32) (o i : Fin 2048) : idx_main_v5 (idx_main_v6 (ix3 b o i)) = ix2 o i :=
  funext fun a => Fin.ext (by match a with | ⟨0, _⟩ => rfl | ⟨1, _⟩ => rfl)

/-- The split readout at (b, s, o), with the coordinates written out. -/
theorem split_apply (x : SX.Idx → EReal) (lg : SW.Idx → EReal) (st : SS.Idx → EReal) (bs : SW.Idx → EReal)
    (b : Fin 32) (s : Fin 64) (o : Fin 2048) :
    split x lg st bs (ix3 b s o)
      = (∑ i : Fin 2048, x (ix3 b s i) * (rate lg o i * st (ix3 b o i))) + ∑ i : Fin 2048, x (ix3 b s i) * bs (ix2 o i) := rfl

/-! ## The reference's last stage is the split readout -/

theorem reference_eq_split (x0 : (⟨S32x64x2048, .f32⟩ : BufTy).Contents (Elt Ideal)) (x1 : (⟨S2048x2048, .f32⟩ : BufTy).Contents (Elt Ideal))
    (x2 : (⟨S32x2048x2048, .f32⟩ : BufTy).Contents (Elt Ideal)) (x4 : (⟨S2048x2048, .f32⟩ : BufTy).Contents (Elt Ideal)) :
    val_main_v10 (F := Ideal) x0 x1 x2 x4 = split x0 x1 x2 x4 := by
  funext j
  obtain ⟨b, s, o, rfl⟩ : ∃ (b : Fin 32) (s : Fin 64) (o : Fin 2048), j = ix3 b s o := ⟨j 0, j 1, j 2, eq_ix3 j⟩
  rw [val_main_v10_apply, val_main_v8_apply, val_main_v9_apply, split_apply]
  show (∑ k : Fin 2048, _) + (∑ k : Fin 2048, _) = _
  congr 1
  · refine Finset.sum_congr rfl fun k _ => ?_
    rw [left_first, right_first, val_main_v7_apply, val_main_v6_apply, val_main_v5_apply, under_batch, val_main_v4_apply,
      val_main_v3_apply, val_main_cst_0_apply, val_main_v2_apply, val_main_v1_apply, val_main_v0_apply, val_main_cst_apply]
    unfold rate
    rfl
  · refine Finset.sum_congr rfl fun k _ => ?_
    rw [left_second, right_second]

end Cert.SplitReference

end
-- ==== Proof.lean ====
/-
  A per-batch fast-weight readout with a base projection: the kernel against its reference, over the extended reals.

  Both programs compute, for batch b, position s and output feature o,
      y[b,s,o] = Σ_i x[b,s,i] · (η[o,i] · state[b,o,i] + base[o,i]),     η[o,i] = c₂ · exp (log_lr[o,i] · c₁),
  with the same two f32 numbers c₁ (nearest √2048) and c₂ (nearest 1/100). The kernel forms the combined weight
  η · state + base tile by tile and contracts once (the FUSED arrangement; its change to a narrower float format
  before the product is the identity on the extended reals). The reference contracts x against η · state and against
  base apart and adds the two sums (the SPLIT arrangement). The two agree when every entry is a real number, which the
  precondition gives: a real times a sum of two reals distributes, and a finite sum of termwise sums splits.

  The modules: Readout (the two arrangements and the law), Finite (the precondition makes every entry real),
  BlockProduct (the kernel body's stored block at an index), ReadoutArray (the kernel's result array is the fused
  readout: each grid point writes its block of it, and the blocks tile the array), SplitReference (the reference's
  result is the split readout). The three programs' runs and the kernel's frames are the generated modules'.
-/
import proofs.«130309_j19069654794325_1_alg».proof.Defs
import proofs.«130309_j19069654794325_1_alg».proof.Proof.Gen.Kernel
import proofs.«130309_j19069654794325_1_alg».proof.Proof.Gen.Kernel.Skeleton
import proofs.«130309_j19069654794325_1_alg».proof.Proof.Gen.Kernel.Launch
import proofs.«130309_j19069654794325_1_alg».proof.Proof.Gen.Kernel.Points
import proofs.«130309_j19069654794325_1_alg».proof.Proof.Gen.Kernel.Frame
import proofs.«130309_j19069654794325_1_alg».proof.Proof.Gen.KernelIdeal
import proofs.«130309_j19069654794325_1_alg».proof.Proof.Gen.KernelIdeal.Skeleton
import proofs.«130309_j19069654794325_1_alg».proof.Proof.Gen.KernelIdeal.Launch
import proofs.«130309_j19069654794325_1_alg».proof.Proof.Gen.KernelIdeal.Points
import proofs.«130309_j19069654794325_1_alg».proof.Proof.Gen.KernelIdeal.Frame
import proofs.«130309_j19069654794325_1_alg».proof.Proof.Gen.ReferenceIdeal
import proofs.«130309_j19069654794325_1_alg».proof.Proof.Gen.Pre_finite_inputs
import proofs.«130309_j19069654794325_1_alg».proof.Proof.Gen.KernelIdeal.Value
import proofs.«130309_j19069654794325_1_alg».proof.Proof.Gen.ReferenceIdeal.Run
import proofs.«130309_j19069654794325_1_alg».proof.Proof.Gen.ReferenceIdeal.Read
import proofs.«130309_j19069654794325_1_alg».proof.Proof.Readout
import proofs.«130309_j19069654794325_1_alg».proof.Proof.Finite
import proofs.«130309_j19069654794325_1_alg».proof.Proof.ReadoutArray
import proofs.«130309_j19069654794325_1_alg».proof.Proof.SplitReference
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, the kernel ends at the fused readout and the reference at the split
    readout of the same real arrays: one function. -/
theorem algebraic : Cert.algebraic_KernelIdeal_ReferenceIdeal := by
  intro m ρ m' ρ' hpre hagree
  refine ⟨_, Cert.ReadoutArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.SplitReference.reference_eq_split,
    (hagree c).1, (hagree c).2.1, (hagree c).2.2.1, (hagree c).2.2.2.2]
  obtain ⟨h0, h1, h2, h4⟩ := Cert.Finite.of_pre _ _ _ _ _ (hpre c)
  exact (Cert.Readout.fused_eq_split _ _ _ _ h0 h1 h2 h4).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
